-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S12800x128 : Shape := ⟨2, ![12800, 128]⟩
abbrev S12800x1 : Shape := ⟨2, ![12800, 1]⟩
abbrev S5000x128 : Shape := ⟨2, ![5000, 128]⟩

abbrev nBuf : Space → Nat
  | .hbm => 35
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1x128, .f32⟩
  | .hbm, ⟨24, _⟩ => ⟨S1x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S100000x128, .f32⟩
  | .local _ .vmem, ⟨0, _⟩ => ⟨S12800x128, .f32⟩
  | .local _ .vmem, ⟨1, _⟩ => ⟨S12800x128, .f32⟩
  | .local _ .vmem, ⟨2, _⟩ => ⟨S12800x1, .f32⟩
  | .local _ .vmem, ⟨3, _⟩ => ⟨S12800x1, .f32⟩
  | .local _ .vmem, ⟨4, _⟩ => ⟨S1x128, .f32⟩
  | .local _ .vmem, ⟨5, _⟩ => ⟨S1x128, .f32⟩
  | .local _ .vmem, ⟨6, _⟩ => ⟨S12800x128, .f32⟩
  | .local _ .vmem, ⟨7, _⟩ => ⟨S12800x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  shapeCasts_S128_S1x128 : S128.ShapeCasts S1x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S12800x1_S12800x128 : S12800x1.Broadcasts S12800x128
  broadcasts_S1x128_S12800x128 : S1x128.Broadcasts S12800x128
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S1600000x128.size a
  hwx0_0 : ∀ i : grid0.Coords, EltTy.bits .f32 = 32 ∨ (Rect.block (s := S1600000x128) S12800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S1600000x1.size a
  hwx0_1 : ∀ i : grid0.Coords, EltTy.bits .f32 = 32 ∨ (Rect.block (s := S1600000x1) S12800x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12800x128.size a ≤ S1600000x128.size a
  hwx0_4 : ∀ i : grid0.Coords, EltTy.bits .f32 = 32 ∨ (Rect.block (s := S1600000x128) S12800x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S12800x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S1x1600000 : Shape := ⟨2, ![1, 1600000]⟩
abbrev S1600000x1 : Shape := ⟨2, ![1600000, 1]⟩
abbrev S1x128 : Shape := ⟨2, ![1, 128]⟩
abbrev S1600000x128 : Shape := ⟨2, ![1600000, 128]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S1x128, .f32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1600000x1_S1600000x128_0_1 : S1600000x1.BroadcastsInDim S1600000x128 (![0, 1] : Fin 2 → Fin S1600000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S_S100000x128 : S_.BroadcastsInDim S100000x128 (![] : Fin 0 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  What the two programs compute, index by index over the extended reals.

  Edge pass.  For edge e and feature h the message is  g[e,h] + w[e]·a[h] + b[h]  with g the gathered source-node rows,
  w the edge weights, a and b the edge encoder's weight and bias.  The kernel adds the bias last, the reference adds
  it to the product first; addition of extended reals is associative, so the two agree with no finiteness needed.

  Node pass.  With S the per-node sum of the incoming messages and x the node features, node n ends at
     out[n,q] = Σ_k relu( Σ_j (S[n,j] + x[n,j])·W1[k,j] + b1[k] ) · W2[q,k] + b2[q],
  relu being the maximum with 0.  The kernel computes it block of rows by block of rows with both weight matrices
  transposed beforehand, the reference in one piece and with x scaled by the literal 1 first.
-/
import Idealize.ShloMosaic.Lib.ValueIdx
import Idealize.ShloMosaic.PureOps.Ideal.Laws

noncomputable section

namespace Cert.Spec

open Idealize.ShloMosaic Idealize.ShloMosaic.ValueIdx

/-- The message of edge `p` at feature `q`, bias added last, from the edge weights as one column [E,1] and the
    encoder's weight and bias as rows [1,H] (the arrays the edge kernel is handed). -/
def edgeAt (g : FVec Ideal ⟨2, ![1600000, 128]⟩ .f32) (w : FVec Ideal ⟨2, ![1600000, 1]⟩ .f32)
    (a b : FVec Ideal ⟨2, ![1, 128]⟩ .f32) (p : Fin 1600000) (q : Fin 128) : EReal :=
  (g (ix2 p q) + w (ix2 p (0 : Fin 1)) * a (ix2 (0 : Fin 1) q)) + b (ix2 (0 : Fin 1) q)

/-- All messages, as one array [E,H]. -/
def edge (g : FVec Ideal ⟨2, ![1600000, 128]⟩ .f32) (w : FVec Ideal ⟨2, ![1600000, 1]⟩ .f32)
    (a b : FVec Ideal ⟨2, ![1, 128]⟩ .f32) : FVec Ideal ⟨2, ![1600000, 128]⟩ .f32 :=
  fun i => edgeAt g w a b (i 0) (i 1)

/-- The hidden activation of node `p` at unit `k`: relu of the first affine layer of `S + x`, the weight matrix given
    transposed ([in, out]) and the bias as a row [1,H]. -/
def hidAt (S x : FVec Ideal ⟨2, ![100000, 128]⟩ .f32) (w1t : FVec Ideal ⟨2, ![128, 128]⟩ .f32)
    (b1 : FVec Ideal ⟨2, ![1, 128]⟩ .f32) (p : Fin 100000) (k : Fin 128) : EReal :=
  max ((∑ j : Fin 128, (S (ix2 p j) + x (ix2 p j)) * w1t (ix2 j k)) + b1 (ix2 (0 : Fin 1) k)) 0

/-- The output of node `p` at feature `q`: the second affine layer of the hidden activations. -/
def mlpAt (S x : FVec Ideal ⟨2, ![100000, 128]⟩ .f32) (w1t : FVec Ideal ⟨2, ![128, 128]⟩ .f32)
    (b1 : FVec Ideal ⟨2, ![1, 128]⟩ .f32) (w2t : FVec Ideal ⟨2, ![128, 128]⟩ .f32)
    (b2 : FVec Ideal ⟨2, ![1, 128]⟩ .f32) (p : Fin 100000) (q : Fin 128) : EReal :=
  (∑ k : Fin 128, hidAt S x w1t b1 p k * w2t (ix2 k q)) + b2 (ix2 (0 : Fin 1) q)

/-- The node pass, as one array [N,H]. -/
def mlp (S x : FVec Ideal ⟨2, ![100000, 128]⟩ .f32) (w1t : FVec Ideal ⟨2, ![128, 128]⟩ .f32)
    (b1 : FVec Ideal ⟨2, ![1, 128]⟩ .f32) (w2t : FVec Ideal ⟨2, ![128, 128]⟩ .f32)
    (b2 : FVec Ideal ⟨2, ![1, 128]⟩ .f32) : FVec Ideal ⟨2, ![100000, 128]⟩ .f32 :=
  fun i => mlpAt S x w1t b1 w2t b2 (i 0) (i 1)

end Cert.Spec

end
-- ==== Proof.EdgeValue.lean ====
/-
  The edge kernel's result array.

  The grid has 125 points; point t handles the 12800 edges 12800·t … 12800·t + 12799.  Its body adds, to the block of
  gathered rows, the product of the edge-weight column with the encoder's weight row, then the encoder's bias row;
  the two rows are the same at every point.  So what point t writes back is block t of ONE array, the
  specification's `Cert.Spec.edge` of the four arrays the region finds, and since the 125 blocks tile the
  [1600000,128] result, the result is that array.
-/
import proofs.«127559_j53077205844582_1_alg».proof.Proof.Gen.KernelIdeal.Frame
import proofs.«127559_j53077205844582_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

/-- A column [a,1] broadcast to [a,b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row p, feature q of its block: gathered entry, plus weight times encoder weight, plus
    encoder bias. -/
theorem pay_apply (x0 : Vec Ideal S12800x128 .f32) (x1 : Vec Ideal S12800x1 .f32) (x2 x3 : Vec Ideal S1x128 .f32)
    (p : Fin 12800) (q : Fin 128) :
    k0_pay1 (F := Ideal) x0 x1 x2 x3 (ix2 p q)
      = (x0 (ix2 p q) + x1 (ix2 p (0 : Fin 1)) * x2 (ix2 (0 : Fin 1) q)) + x3 (ix2 (0 : Fin 1) q) := by
  unfold k0_pay1
  simp only [shapeCast_self]
  show (x0 (ix2 p q) + broadcastTo S12800x128 x1 broadcasts_S12800x1_S12800x128 (ix2 p q)
      * broadcastTo S12800x128 x2 broadcasts_S1x128_S12800x128 (ix2 p q))
      + broadcastTo S12800x128 x3 broadcasts_S1x128_S12800x128 (ix2 p q) = _
  rw [broadcastTo_a1_ab_apply x1 broadcasts_S12800x1_S12800x128 p q,
    broadcastTo_1b_ab_apply x2 broadcasts_S1x128_S12800x128 p q,
    broadcastTo_1b_ab_apply x3 broadcasts_S1x128_S12800x128 p q]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the gathered rows, the weight column and the result move together, one
    block of 12800 edges a point; the two encoder rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The specification's message from its four entries. -/
theorem edgeAt_of (g : FVec Ideal ⟨2, ![1600000, 128]⟩ .f32) (w : FVec Ideal ⟨2, ![1600000, 1]⟩ .f32)
    (a b : FVec Ideal ⟨2, ![1, 128]⟩ .f32) (P : Fin 1600000) (q : Fin 128) (v0 v1 v2 v3 : EReal)
    (h0 : v0 = g (ix2 P q)) (h1 : v1 = w (ix2 P (0 : Fin 1))) (h2 : v2 = a (ix2 (0 : Fin 1) q)) (h3 : v3 = b (ix2 (0 : Fin 1) q)) :
    (v0 + v1 * v2) + v3 = Cert.Spec.edge g w a b (ix2 P q) := by
  subst h0 h1 h2 h3; rfl

/-- What point t writes back is block t of the specification's message array of the four arrays the region finds. -/
theorem flushed_eq (c : Dev nD) (t : Fin cfg0.N) :
    (dat0 V c).flushed 4 t = ((cfg0.win 4).blk t).view.read (Elt Ideal)
      (Cert.Spec.edge (V c main_v10) (V c main_v11) (V c main_v12) (V c main_v13)) := by
  show (cfg0.win 4).cut (grid0.coords t) ((dat0 V c).after 4 t) = _
  rw [after0_4]
  unfold out0_4
  rw [View.canon_unit_zero hz]
  simp only [View.ld_unit_zero (S := S12800x128) hz, View.ld_unit_zero (S := S12800x1) hz, View.ld_unit_zero (S := S1x128) hz]
  obtain ⟨e00, e01, e10, e11, e20, e21, e30, e31, e40, e41⟩ := idx_facts t
  funext j
  obtain ⟨p, q, rfl⟩ : ∃ (p : Fin 12800) (q : Fin 128), j = ix2 p q := ⟨j 0, j 1, eq_ix2 j⟩
  show k0_pay1 (F := Ideal) (iblk0 V c 0 t) (iblk0 V c 1 t) (iblk0 V c 2 t) (iblk0 V c 3 t) (ix2 p q)
    = Cert.Spec.edge (V c main_v10) (V c main_v11) (V c main_v12) (V c main_v13) (((cfg0.win 4).blk t).view.emb (ix2 p q))
  refine (pay_apply (iblk0 V c 0 t) (iblk0 V c 1 t) (iblk0 V c 2 t) (iblk0 V c 3 t) p q).trans ?_
  have ht : t.val < 125 := lt_of_lt_of_eq t.isLt N_0
  have hp : p.val < 12800 := p.isLt
  have hP : 12800 * t.val + p.val < 1600000 := by omega
  have h4 : ((cfg0.win 4).blk t).view.emb (ix2 p q) = ix2 (⟨12800 * t.val + p.val, hP⟩ : Fin 1600000) q := by
    funext a; apply Fin.ext
    match a with
    | ⟨0, _⟩ => show win0_4.index t (0 : Fin 2) * 12800 + 1 * p.val = 12800 * t.val + p.val; omega
    | ⟨1, _⟩ => show win0_4.index t (1 : Fin 2) * 128 + 1 * q.val = q.val; omega
  have h0 : ((cfg0.win 0).blk t).view.emb (ix2 p q) = ix2 (⟨12800 * t.val + p.val, hP⟩ : Fin 1600000) q := by
    funext a; apply Fin.ext
    match a with
    | ⟨0, _⟩ => show win0_0.index t (0 : Fin 2) * 12800 + 1 * p.val = 12800 * t.val + p.val; omega
    | ⟨1, _⟩ => show win0_0.index t (1 : Fin 2) * 128 + 1 * q.val = q.val; omega
  have h1 : ((cfg0.win 1).blk t).view.emb (ix2 p (0 : Fin 1)) = ix2 (⟨12800 * t.val + p.val, hP⟩ : Fin 1600000) (0 : Fin 1) := by
    funext a; apply Fin.ext
    match a with
    | ⟨0, _⟩ => show win0_1.index t (0 : Fin 2) * 12800 + 1 * p.val = 12800 * t.val + p.val; omega
    | ⟨1, _⟩ => show win0_1.index t (1 : Fin 2) * 1 + 1 * 0 = 0; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have h3 : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  rw [h4]
  refine edgeAt_of (V c main_v10) (V c main_v11) (V c main_v12) (V c main_v13) ⟨12800 * t.val + p.val, hP⟩ q _ _ _ _ ?_ ?_ ?_ ?_
  · show V c main_v10 (((cfg0.win 0).blk t).view.emb (ix2 p q)) = _
    rw [h0]
  · show V c main_v11 (((cfg0.win 1).blk t).view.emb (ix2 p (0 : Fin 1))) = _
    rw [h1]
  · show V c main_v12 (((cfg0.win 2).blk t).view.emb (ix2 (0 : Fin 1) q)) = _
    rw [h2]
  · show V c main_v13 (((cfg0.win 3).blk t).view.emb (ix2 (0 : Fin 1) q)) = _
    rw [h3]

/-- An index of the result is in point t's block iff each coordinate is in the block's range on its axis. -/
theorem mem_blk (t : Fin cfg0.N) (i : S1600000x128.Idx) :
    i ∈ ((cfg0.win 4).blk t).view.set ↔ ∀ a : Fin 2, win0_4.index t a * S12800x128.size a ≤ (i a).val
      ∧ (i a).val < win0_4.index t a * S12800x128.size a + S12800x128.size a := by
  show i ∈ ((View.whole main_v14).slice (win0_4.rect t)).set ↔ _
  rw [View.set_slice_whole, Rect.mem_set_unit]
  exact Iff.rfl

/-- The blocks tile the result: edge e lies in the block of point e / 12800. -/
theorem cover (i : S1600000x128.Idx) :
    ∃ t : Fin cfg0.N, (cfg0.win 4).flush t = true ∧ i ∈ ((cfg0.win 4).blk t).view.set := by
  have hi0 : (i 0).val < 1600000 := (i 0).isLt
  have hi1 : (i 1).val < 128 := (i 1).isLt
  have hN : (i 0).val / 12800 < cfg0.N := lt_of_lt_of_eq (show (i 0).val / 12800 < 125 by omega) N_0.symm
  obtain ⟨_, _, _, _, _, _, _, _, e40, e41⟩ := idx_facts ⟨(i 0).val / 12800, hN⟩
  have e40' : win0_4.index ⟨(i 0).val / 12800, hN⟩ (0 : Fin 2) = (i 0).val / 12800 := e40
  refine ⟨⟨(i 0).val / 12800, hN⟩, flush0_4 _, ?_⟩
  rw [mem_blk]
  intro a
  match a with
  | ⟨0, _⟩ =>
    show win0_4.index ⟨(i 0).val / 12800, hN⟩ (0 : Fin 2) * 12800 ≤ (i 0).val
      ∧ (i 0).val < win0_4.index ⟨(i 0).val / 12800, hN⟩ (0 : Fin 2) * 12800 + 12800
    omega
  | ⟨1, _⟩ =>
    show win0_4.index ⟨(i 0).val / 12800, hN⟩ (1 : Fin 2) * 128 ≤ (i 1).val
      ∧ (i 1).val < win0_4.index ⟨(i 0).val / 12800, hN⟩ (1 : Fin 2) * 128 + 128
    omega

/-- The result array after the region: the specification's messages of the four arrays the region finds. -/
theorem final (c : Dev nD) :
    (dat0 V c).arrAt 4 cfg0.N = Cert.Spec.edge (V c main_v10) (V c main_v11) (V c main_v12) (V c main_v13) :=
  (dat0 V c).arrAt_eq_of_cover 4 _ (fun t _ => flushed_eq V c t) cover

end Cert.KernelIdeal.EdgeValue

end
-- ==== Proof.NodePayload.lean ====
/-
  The node kernel's stored block, read at one entry.

  For row r of the block and feature q the body computes
     Σ_k relu( Σ_j (s[r,j] + x[r,j])·A[j,k] + b1[0,k] ) · B[k,q] + b2[0,q]:
  the two changes of float format are the identity on extended reals, each product into a zero accumulator is the
  plain sum over the contracted axis, and the two bias rows are broadcast along the rows.
-/
import proofs.«127559_j53077205844582_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodePayload

open Cert.KernelIdeal Cert.KernelIdeal.Gen
open Idealize.ShloMosaic Idealize.ShloMosaic.TcCoe Idealize.ShloMosaic.ValueIdx

/-! ## The product's operand indices, coordinate by coordinate

The product contracts the left operand's axis 1 with the right operand's axis 0 and has no batch axis: at output
index (r, c) and contraction index k the left operand is read at (r, k) and the right one at (k, c). -/

/-- The left operand's row is the output's row. -/
private theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction index. -/
private theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction index. -/
private theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the output's column. -/
private theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into a zero accumulator, read at (r, c): the plain sum over the contracted axis. -/
private theorem mm_apply (a : FVec Ideal S5000x128 .bf16) (b : FVec Ideal S128x128 .bf16) (r : Fin 5000) (c : Fin 128) :
    matmul dot_S5000x128_S128x128_S5000x128_1_0_0_1_n_n none a b (constant S5000x128 .f32 0x00000000#32) (ix2 r c)
      = ∑ j : Fin 128, a (ix2 r j) * b (ix2 j c) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun j _ => ?_
  have hk := ValueIdx.contrEquiv1_symm_val dot_S5000x128_S128x128_S5000x128_1_0_0_1_n_n 128 rfl rfl j
  have el : dot_S5000x128_S128x128_S5000x128_1_0_0_1_n_n.lhsIdx (ix2 r c) ((ValueIdx.contrEquiv1 dot_S5000x128_S128x128_S5000x128_1_0_0_1_n_n 128 rfl rfl).symm j) = ix2 r j := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r c) ((ValueIdx.contrEquiv1 dot_S5000x128_S128x128_S5000x128_1_0_0_1_n_n 128 rfl rfl).symm j) = ix2 j c := funext fun a => Fin.ext (by
    match a with
    | ⟨0, _⟩ => exact (rhs_dot_0 _ _).trans hk
    | ⟨1, _⟩ => exact rhs_dot_1 _ _)
  rw [el, er]

/-- A [1,128] row broadcast along 5000 rows, read at (r, c): the row's entry c. -/
private theorem row_apply (x : FVec Ideal S1x128 .f32) (h : S1x128.Broadcasts S5000x128) (r : Fin 5000) (c : Fin 128) :
    broadcastTo S5000x128 x h (ix2 r c) = x (ix2 (0 : Fin 1) c) :=
  broadcastTo_apply x h (ix2 r c) (ix2 (0 : Fin 1) c) (fun a => match a with
    | ⟨0, _⟩ => rfl
    | ⟨1, _⟩ => rfl)

/-- The node kernel's stored value at row `r`, feature `q` of its block. -/
theorem pay_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k1_pay1 (F := Ideal) x0 x1 x2 x3 x4 x5 (ix2 r q)
      = (∑ k : Fin 128, max ((∑ j : Fin 128, (x0 (ix2 r j) + x1 (ix2 r j)) * x2 (ix2 j k)) + x3 (ix2 (0 : Fin 1) k)) 0 * x4 (ix2 k q))
          + x5 (ix2 (0 : Fin 1) q) := by
  -- the zero the maximum is taken against is the extended real 0
  have h0 : (FloatOps.ofBits (F := Ideal) FTy.f32 0x00000000#32) = 0 := Ideal.ofBits_zero_f32
  unfold k1_pay1
  -- the casts to the same shape are the identity
  simp only [shapeCast_self]
  -- sums, maxima and format changes read entrywise; each product is its sum; each bias row is read at its entry
  simp only [addf_apply, mm_apply, row_apply, truncf_apply, maximumf_apply, broadcast_apply, h0]

end Cert.KernelIdeal.NodePayload

end
-- ==== Proof.NodeValue.lean ====
/-
  The node kernel's result array.

  The grid has 20 points; point t handles the 5000 nodes 5000·t … 5000·t + 4999.  Its body adds the block of
  scattered sums to the block of node features and runs the two affine layers with relu between them; the two
  weight matrices and the two bias rows are the same at every point.  So what point t writes back is block t of ONE
  array, the specification's `Cert.Spec.mlp` of the six arrays the region finds, and since the 20 blocks tile the
  [100000,128] result, the result is that array.
-/
import proofs.«127559_j53077205844582_1_alg».proof.Proof.Gen.KernelIdeal.Frame
import proofs.«127559_j53077205844582_1_alg».proof.Proof.Spec
import proofs.«127559_j53077205844582_1_alg».proof.Proof.NodePayload
import Idealize.ShloMosaic.Lib.Pipeline.Value
import Idealize.ShloMosaic.Lib.ValueIdx

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat)

/-- The specification's node output from the entries it reads: row P of the sums and of the features, both weight
    matrices, both bias rows. -/
theorem mlp_of (S X : FVec Ideal ⟨2, ![100000, 128]⟩ .f32) (A : FVec Ideal ⟨2, ![128, 128]⟩ .f32)
    (B1 : FVec Ideal ⟨2, ![1, 128]⟩ .f32) (A2 : FVec Ideal ⟨2, ![128, 128]⟩ .f32) (B2 : FVec Ideal ⟨2, ![1, 128]⟩ .f32)
    (P : Fin 100000) (q : Fin 128)
    (s x : Fin 128 → EReal) (a : Fin 128 → Fin 128 → EReal) (b1 : Fin 128 → EReal) (a2 : Fin 128 → EReal) (b2 : EReal)
    (hs : ∀ j, s j = S (ix2 P j)) (hx : ∀ j, x j = X (ix2 P j)) (ha : ∀ j k, a j k = A (ix2 j k))
    (hb1 : ∀ k, b1 k = B1 (ix2 (0 : Fin 1) k)) (ha2 : ∀ k, a2 k = A2 (ix2 k q)) (hb2 : b2 = B2 (ix2 (0 : Fin 1) q)) :
    (∑ k : Fin 128, max ((∑ j : Fin 128, (s j + x j) * a j k) + b1 k) 0 * a2 k) + b2
      = Cert.Spec.mlp S X A B1 A2 B2 (ix2 P q) := by
  obtain rfl : s = fun j => S (ix2 P j) := funext hs
  obtain rfl : x = fun j => X (ix2 P j) := funext hx
  obtain rfl : a = fun j k => A (ix2 j k) := funext fun j => funext fun k => ha j k
  obtain rfl : b1 = fun k => B1 (ix2 (0 : Fin 1) k) := funext hb1
  obtain rfl : a2 = fun k => A2 (ix2 k q) := funext ha2
  subst hb2
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the scattered sums, the node features and the result move together, one
    block of 5000 nodes a point; the weight matrices and bias rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the specification's node pass of the six arrays the region finds. -/
theorem flushed_eq (c : Dev nD) (t : Fin cfg1.N) :
    (dat1 V c).flushed 6 t = ((cfg1.win 6).blk t).view.read (Elt Ideal)
      (Cert.Spec.mlp (V c main_v17) (V c main_arg0) (V c main_v18) (V c main_v20) (V c main_v19) (V c main_v21)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  funext i
  obtain ⟨r, q, rfl⟩ : ∃ (r : Fin 5000) (q : Fin 128), i = ix2 r q := ⟨i 0, i 1, eq_ix2 i⟩
  show k1_pay1 (F := Ideal) (iblk1 V c 0 t) (iblk1 V c 1 t) (iblk1 V c 2 t) (iblk1 V c 3 t) (iblk1 V c 4 t) (iblk1 V c 5 t) (ix2 r q)
    = Cert.Spec.mlp (V c main_v17) (V c main_arg0) (V c main_v18) (V c main_v20) (V c main_v19) (V c main_v21)
        (((cfg1.win 6).blk t).view.emb (ix2 r q))
  refine (NodePayload.pay_apply (iblk1 V c 0 t) (iblk1 V c 1 t) (iblk1 V c 2 t) (iblk1 V c 3 t) (iblk1 V c 4 t) (iblk1 V c 5 t) r q).trans ?_
  have ht : t.val < 20 := lt_of_lt_of_eq t.isLt N_1
  have hr : r.val < 5000 := r.isLt
  have hP : 5000 * t.val + r.val < 100000 := by omega
  have h6 : ((cfg1.win 6).blk t).view.emb (ix2 r q) = ix2 (⟨5000 * t.val + r.val, hP⟩ : Fin 100000) q := by
    funext a; apply Fin.ext
    match a with
    | ⟨0, _⟩ => show win1_6.index t (0 : Fin 2) * 5000 + 1 * r.val = 5000 * t.val + r.val; omega
    | ⟨1, _⟩ => show win1_6.index t (1 : Fin 2) * 128 + 1 * q.val = q.val; omega
  have h0 : ∀ j : Fin 128, ((cfg1.win 0).blk t).view.emb (ix2 r j) = ix2 (⟨5000 * t.val + r.val, hP⟩ : Fin 100000) j := fun j => by
    funext a; apply Fin.ext
    match a with
    | ⟨0, _⟩ => show win1_0.index t (0 : Fin 2) * 5000 + 1 * r.val = 5000 * t.val + r.val; omega
    | ⟨1, _⟩ => show win1_0.index t (1 : Fin 2) * 128 + 1 * j.val = j.val; omega
  have h1 : ∀ j : Fin 128, ((cfg1.win 1).blk t).view.emb (ix2 r j) = ix2 (⟨5000 * t.val + r.val, hP⟩ : Fin 100000) j := fun j => by
    funext a; apply Fin.ext
    match a with
    | ⟨0, _⟩ => show win1_1.index t (0 : Fin 2) * 5000 + 1 * r.val = 5000 * t.val + r.val; omega
    | ⟨1, _⟩ => show win1_1.index t (1 : Fin 2) * 128 + 1 * j.val = j.val; omega
  have h2 : ∀ j k : Fin 128, ((cfg1.win 2).blk t).view.emb (ix2 j k) = ix2 j k := fun j k => by
    funext a; apply Fin.ext
    match a with
    | ⟨0, _⟩ => show win1_2.index t (0 : Fin 2) * 128 + 1 * j.val = j.val; omega
    | ⟨1, _⟩ => show win1_2.index t (1 : Fin 2) * 128 + 1 * k.val = k.val; omega
  have h3 : ∀ k : Fin 128, ((cfg1.win 3).blk t).view.emb (ix2 (0 : Fin 1) k) = ix2 (0 : Fin 1) k := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ∀ j k : Fin 128, ((cfg1.win 4).blk t).view.emb (ix2 j k) = ix2 j k := fun j k => by
    funext a; apply Fin.ext
    match a with
    | ⟨0, _⟩ => show win1_4.index t (0 : Fin 2) * 128 + 1 * j.val = j.val; omega
    | ⟨1, _⟩ => show win1_4.index t (1 : Fin 2) * 128 + 1 * k.val = k.val; omega
  have h5 : ∀ k : Fin 128, ((cfg1.win 5).blk t).view.emb (ix2 (0 : Fin 1) k) = ix2 (0 : Fin 1) k := fun k => by
    funext a; apply Fin.ext
    match a with
    | ⟨0, _⟩ => show win1_5.index t (0 : Fin 2) * 1 + 1 * 0 = 0; omega
    | ⟨1, _⟩ => show win1_5.index t (1 : Fin 2) * 128 + 1 * k.val = k.val; omega
  rw [h6]
  refine mlp_of (V c main_v17) (V c main_arg0) (V c main_v18) (V c main_v20) (V c main_v19) (V c main_v21)
    ⟨5000 * t.val + r.val, hP⟩ q
    (fun j => iblk1 V c 0 t (ix2 r j)) (fun j => iblk1 V c 1 t (ix2 r j)) (fun j k => iblk1 V c 2 t (ix2 j k))
    (fun k => iblk1 V c 3 t (ix2 (0 : Fin 1) k)) (fun k => iblk1 V c 4 t (ix2 k q)) (iblk1 V c 5 t (ix2 (0 : Fin 1) q))
    (fun j => ?_) (fun j => ?_) (fun j k => ?_) (fun k => ?_) (fun k => ?_) ?_
  · show V c main_v17 (((cfg1.win 0).blk t).view.emb (ix2 r j)) = _
    rw [h0 j]
  · show V c main_arg0 (((cfg1.win 1).blk t).view.emb (ix2 r j)) = _
    rw [h1 j]
  · show V c main_v18 (((cfg1.win 2).blk t).view.emb (ix2 j k)) = _
    rw [h2 j k]
  · show V c main_v20 (((cfg1.win 3).blk t).view.emb (ix2 (0 : Fin 1) k)) = _
    rw [h3 k]
  · show V c main_v19 (((cfg1.win 4).blk t).view.emb (ix2 k q)) = _
    rw [h4 k q]
  · show V c main_v21 (((cfg1.win 5).blk t).view.emb (ix2 (0 : Fin 1) q)) = _
    rw [h5 q]

/-- An index of the result is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v22).slice (win1_6.rect t)).set ↔ _
  rw [View.set_slice_whole, Rect.mem_set_unit]
  exact Iff.rfl

/-- The blocks tile the result: node n lies in the block of point n / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := lt_of_lt_of_eq (show (i 0).val / 5000 < 20 by omega) N_1.symm
  obtain ⟨_, _, _, _, _, _, _, _, _, _, _, _, e60, e61⟩ := idx_facts ⟨(i 0).val / 5000, hN⟩
  have e60' : win1_6.index ⟨(i 0).val / 5000, hN⟩ (0 : Fin 2) = (i 0).val / 5000 := e60
  refine ⟨⟨(i 0).val / 5000, hN⟩, flush1_6 _, ?_⟩
  rw [mem_blk]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    omega

/-- The result array after the region: the specification's node pass of the six arrays the region finds. -/
theorem final (c : Dev nD) :
    (dat1 V c).arrAt 6 cfg1.N
      = Cert.Spec.mlp (V c main_v17) (V c main_arg0) (V c main_v18) (V c main_v20) (V c main_v19) (V c main_v21) :=
  (dat1 V c).arrAt_eq_of_cover 6 _ (fun t _ => flushed_eq V c t) cover

end Cert.KernelIdeal.NodeValue

end
-- ==== Proof.RefSide.lean ====
/-
  The reference's result, read as the specification.

  Its edge pass adds the encoder's bias to the product first and the gathered row after:  g + (w·a + b).
  Addition of extended reals is associative, so that is the specification's  (g + w·a) + b.
  Its node pass multiplies the node features by the literal 1 (the extended reals' unit) before adding them to the
  scattered sums, and contracts with the transposed weight matrices in one whole-array product each; read at an
  index each product is a sum over the 128 hidden units.
-/
import proofs.«127559_j53077205844582_1_alg».proof.Proof.Gen.ReferenceIdeal.Read
import proofs.«127559_j53077205844582_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's messages are the specification's, of the gathered rows and of the edge weights, encoder weight
    and encoder bias laid out as the column and the two rows the reference itself forms. -/
theorem edge_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 x4 : (⟨S128, .f32⟩ : BufTy).Contents (Elt Ideal)) :
    val_main_v19 (F := Ideal) x0 x1 x2 x3 x4
      = Cert.Spec.edge (val_main_v18 (F := Ideal) x0 x1) (val_main_v4 (F := Ideal) x2) (val_main_v5 (F := Ideal) x3) (val_main_v9 (F := Ideal) x4) := by
  funext i
  obtain ⟨p, q, rfl⟩ : ∃ (p : Fin 1600000) (q : Fin 128), i = ValueIdx.ix2 p q := ⟨i 0, i 1, ValueIdx.eq_ix2 i⟩
  rw [val_main_v19_apply, val_main_v11_apply, val_main_v8_apply, val_main_v6_apply, val_main_v7_apply, val_main_v10_apply]
  have e6 : idx_main_v6 (ix2 p q) = ix2 p (0 : Fin 1) :=
    funext fun a => Fin.ext (by match a with | ⟨0, _⟩ => rfl | ⟨1, _⟩ => rfl)
  have e7 : idx_main_v7 (ix2 p q) = ix2 (0 : Fin 1) q :=
    funext fun a => Fin.ext (by match a with | ⟨0, _⟩ => rfl | ⟨1, _⟩ => rfl)
  have e10 : idx_main_v10 (ix2 p q) = ix2 (0 : Fin 1) q :=
    funext fun a => Fin.ext (by match a with | ⟨0, _⟩ => rfl | ⟨1, _⟩ => rfl)
  rw [e6, e7, e10]
  exact (add_assoc _ _ _).symm

/-- The pattern of the literal 1 denotes the extended reals' unit. -/
private theorem ofBits_one_f32 : Ideal.ofBits .f32 0x3F800000#32 = 1 :=
  IdealRules.sign_bit.ideal_onePat .f32

/-- The reference's result is the specification's node pass of the scattered sums, the node features, the two
    transposed weight matrices and the two biases as rows. -/
theorem mlp_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v36 (F := Ideal) x0 x1 x2 x3 x4 x5 x6 x7 x8
      = Cert.Spec.mlp (val_main_v22 (F := Ideal) x0 x1 x2 x3 x4) x0 (val_main_v26 (F := Ideal) x5) (val_main_v28 (F := Ideal) x6)
          (val_main_v32 (F := Ideal) x7) (val_main_v34 (F := Ideal) x8) := by
  funext i
  obtain ⟨p, q, rfl⟩ : ∃ (p : Fin 100000) (q : Fin 128), i = ValueIdx.ix2 p q := ⟨i 0, i 1, ValueIdx.eq_ix2 i⟩
  rw [val_main_v36_apply, val_main_v35_apply, val_main_v33_apply]
  have e35 : idx_main_v35 (ix2 p q) = ix2 (0 : Fin 1) q :=
    funext fun a => Fin.ext (by match a with | ⟨0, _⟩ => rfl | ⟨1, _⟩ => rfl)
  rw [e35]
  show (∑ k : Fin 128, _) + _ = Cert.Spec.mlpAt _ _ _ _ _ _ p q
  unfold Cert.Spec.mlpAt
  refine congrArg₂ (fun a b : EReal => a + b) (Finset.sum_congr rfl fun k _ => ?_) rfl
  have el : lidx_main_v33 (ix2 p q) k = ix2 p k :=
    funext fun a => Fin.ext (by match a with | ⟨0, _⟩ => rfl | ⟨1, _⟩ => rfl)
  have er : ridx_main_v33 (ix2 p q) k = ix2 k q :=
    funext fun a => Fin.ext (by match a with | ⟨0, _⟩ => rfl | ⟨1, _⟩ => rfl)
  rw [el, er]
  refine congrArg₂ (fun a b : EReal => a * b) ?_ rfl
  rw [val_main_v31_apply, val_main_v30_apply, val_main_v29_apply, val_main_v27_apply, val_main_call0_v0_apply,
    val_main_call0_cst_apply]
  have e29 : idx_main_v29 (ix2 p k) = ix2 (0 : Fin 1) k :=
    funext fun a => Fin.ext (by match a with | ⟨0, _⟩ => rfl | ⟨1, _⟩ => rfl)
  rw [e29]
  unfold Cert.Spec.hidAt
  show max ((∑ j : Fin 128, _) + _) (Ideal.ofBits .f32 0x00000000#32) = max (_ + _) 0
  rw [Ideal.ofBits_zero_f32]
  refine congrArg₂ (fun a b : EReal => max (a + b) 0) (Finset.sum_congr rfl fun j _ => ?_) rfl
  have el' : lidx_main_v27 (ix2 p k) j = ix2 p j :=
    funext fun a => Fin.ext (by match a with | ⟨0, _⟩ => rfl | ⟨1, _⟩ => rfl)
  have er' : ridx_main_v27 (ix2 p k) j = ix2 j k :=
    funext fun a => Fin.ext (by match a with | ⟨0, _⟩ => rfl | ⟨1, _⟩ => rfl)
  rw [el', er']
  refine congrArg₂ (fun a b : EReal => a * b) ?_ rfl
  rw [val_main_v25_apply, val_main_v24_apply, val_main_v23_apply, val_main_cst_1_apply]
  show _ + Ideal.ofBits .f32 0x3F800000#32 * _ = _
  rw [ofBits_one_f32, one_mul]

end Cert.ReferenceIdeal.RefValue

end
-- ==== Proof.KernelValue.lean ====
/-
  The kernel program's result, as the reference's.

  Between the launch and the return the arrays pass through two stretches of host operations and the two kernel
  regions.  The first stretch gathers the source rows and lays the edge weights out as a column and the encoder's
  weight and bias as rows; the edge region leaves the specification's messages of those four arrays; the second
  stretch scatter-adds the messages into per-node sums, transposes the two weight matrices and lays the two biases
  out as rows; the node region leaves the specification's node pass of those six arrays.  The gather, the index
  arithmetic before it and the scatter-add are the reference's own operations on the same arguments, so they are
  carried as they are and never opened.  A vector laid out as a row [1,128] (or as a column [E,1]) by a reshape is
  the row (the column) the reference forms by a broadcast: both read the vector's entry at the one free coordinate.
-/
import proofs.«127559_j53077205844582_1_alg».proof.Proof.EdgeValue
import proofs.«127559_j53077205844582_1_alg».proof.Proof.NodeValue
import proofs.«127559_j53077205844582_1_alg».proof.Proof.RefSide
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx

/-! ## A reshape to a row or to a column is the broadcast that forms the same row or column -/

/-- A vector [128] reshaped to the row [1,128] is the vector broadcast into that row. -/
theorem row_eq {α : Type} (x : (⟨1, ![128]⟩ : Shape).Idx → α) (h : (⟨1, ![128]⟩ : Shape).ShapeCasts ⟨2, ![1, 128]⟩)
    (h' : (⟨1, ![128]⟩ : Shape).BroadcastsInDim ⟨2, ![1, 128]⟩ ![1]) :
    shapeCast ⟨2, ![1, 128]⟩ x h = broadcastInDim ⟨2, ![1, 128]⟩ ![1] h' x := by
  funext i
  obtain ⟨u, k, rfl⟩ : ∃ (u : Fin 1) (k : Fin 128), i = ix2 u k := ⟨i 0, i 1, eq_ix2 i⟩
  rw [shapeCast_a_1a_apply x h u k]
  exact (broadcastInDim_apply _ h' x (ix2 u k) (ix1 k) (fun a => match a with
    | ⟨0, _⟩ => by show k.val = if (128 : Nat) = 1 then 0 else k.val; rw [if_neg (by decide)])).symm

/-- A vector [1600000] reshaped to the column [1600000,1] is the vector broadcast into that column. -/
theorem col_eq {α : Type} (x : (⟨1, ![1600000]⟩ : Shape).Idx → α) (h : (⟨1, ![1600000]⟩ : Shape).ShapeCasts ⟨2, ![1600000, 1]⟩)
    (h' : (⟨1, ![1600000]⟩ : Shape).BroadcastsInDim ⟨2, ![1600000, 1]⟩ ![0]) :
    shapeCast ⟨2, ![1600000, 1]⟩ x h = broadcastInDim ⟨2, ![1600000, 1]⟩ ![0] h' x := by
  funext i
  obtain ⟨p, u, rfl⟩ : ∃ (p : Fin 1600000) (u : Fin 1), i = ix2 p u := ⟨i 0, i 1, eq_ix2 i⟩
  have hu : u.val = 0 := by omega
  rw [shapeCast_apply x h (ix2 p u) (ix1 p) (by
    rw [Shape.rowMajor_val_two, Shape.rowMajor_val_one]
    show p.val = p.val * 1 + u.val
    omega)]
  exact (broadcastInDim_apply _ h' x (ix2 p u) (ix1 p) (fun a => match a with
    | ⟨0, _⟩ => by show p.val = if (1600000 : Nat) = 1 then 0 else p.val; rw [if_neg (by decide)])).symm

variable (m : (ℓ : Loc nD τ sig) → Buf (Elt Ideal) ℓ) (ρ : Dev nD → PrngReg)

/-! ## The arguments, read at the two regions' entries -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W2_arg0 (c : Dev nD) : W2 m ρ c (Proc.devRef .tc main_arg0) = m ((c : Thread nD τ).loc main_arg0) :=
  (W2_of_ne m ρ c main_arg0 (by decide)).trans (W1_arg0 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## What the edge region finds, and what it leaves -/

/-- The gathered source rows are the reference's gather of the same arguments. -/
theorem V1_v10 (c : Dev nD) : V1 m ρ c main_v10 = Cert.ReferenceIdeal.Read.val_main_v18 (F := Ideal) (m ((c : Thread nD τ).loc main_arg0)) (m ((c : Thread nD τ).loc main_arg1)) := by
  show StableHlo.after hostOps0 (W0 m ρ c) (Proc.devRef .tc main_v10) = _
  after_results
  rfl

/-- The edge weights as a column. -/
theorem V1_v11 (c : Dev nD) : V1 m ρ c main_v11 = Cert.ReferenceIdeal.Read.val_main_v4 (F := Ideal) (m ((c : Thread nD τ).loc main_arg2)) := by
  show StableHlo.after hostOps0 (W0 m ρ c) (Proc.devRef .tc main_v11) = _
  after_results
  exact col_eq _ _ _

/-- The encoder's weight as a row. -/
theorem V1_v12 (c : Dev nD) : V1 m ρ c main_v12 = Cert.ReferenceIdeal.Read.val_main_v5 (F := Ideal) (m ((c : Thread nD τ).loc main_arg3)) := by
  show StableHlo.after hostOps0 (W0 m ρ c) (Proc.devRef .tc main_v12) = _
  after_results
  exact row_eq _ _ _

/-- The encoder's bias as a row. -/
theorem V1_v13 (c : Dev nD) : V1 m ρ c main_v13 = Cert.ReferenceIdeal.Read.val_main_v9 (F := Ideal) (m ((c : Thread nD τ).loc main_arg4)) := by
  show StableHlo.after hostOps0 (W0 m ρ c) (Proc.devRef .tc main_v13) = _
  after_results
  exact row_eq _ _ _

/-- The target indices pass the edge region untouched. -/
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

/-- The edge region leaves the specification's messages, which are the reference's. -/
theorem W2_v14 (c : Dev nD) : W2 m ρ c (Proc.devRef .tc main_v14)
    = Cert.ReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ((EdgeValue.final (V1 m ρ) c).trans ?_)
  rw [V1_v10 m ρ c, V1_v11 m ρ c, V1_v12 m ρ c, V1_v13 m ρ c]
  exact (Cert.ReferenceIdeal.RefValue.edge_eq _ _ _ _ _).symm

/-! ## What the node region finds -/

/-- The per-node sums of the messages are the reference's scatter-add. -/
theorem V3_v17 (c : Dev nD) : V3 m ρ c main_v17
    = Cert.ReferenceIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v17) = _
  after_results
  rw [W2_v3 m ρ c, W2_v14 m ρ c]
  rfl

/-- The node features. -/
theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

/-- The first weight matrix, transposed. -/
theorem V3_v18 (c : Dev nD) : V3 m ρ c main_v18 = Cert.ReferenceIdeal.Read.val_main_v26 (F := Ideal) (m ((c : Thread nD τ).loc main_arg5)) := by
  show StableHlo.after hostOps1 (W2 m ρ c) (Proc.devRef .tc main_v18) = _
  after_results
  rw [W2_arg5 m ρ c]
  rfl

/-- The first bias as a row. -/
theorem V3_v20 (c : Dev nD) : V3 m ρ c main_v20 = Cert.ReferenceIdeal.Read.val_main_v28 (F := Ideal) (m ((c : Thread nD τ).loc main_arg6)) := by
  show StableHlo.after hostOps1 (W2 m ρ c) (Proc.devRef .tc main_v20) = _
  after_results
  rw [W2_arg6 m ρ c]
  exact row_eq _ _ _

/-- The second weight matrix, transposed. -/
theorem V3_v19 (c : Dev nD) : V3 m ρ c main_v19 = Cert.ReferenceIdeal.Read.val_main_v32 (F := Ideal) (m ((c : Thread nD τ).loc main_arg7)) := by
  show StableHlo.after hostOps1 (W2 m ρ c) (Proc.devRef .tc main_v19) = _
  after_results
  rw [W2_arg7 m ρ c]
  rfl

/-- The second bias as a row. -/
theorem V3_v21 (c : Dev nD) : V3 m ρ c main_v21 = Cert.ReferenceIdeal.Read.val_main_v34 (F := Ideal) (m ((c : Thread nD τ).loc main_arg8)) := by
  show StableHlo.after hostOps1 (W2 m ρ c) (Proc.devRef .tc main_v21) = _
  after_results
  rw [W2_arg8 m ρ c]
  exact row_eq _ _ _

/-! ## The result -/

/-- The kernel program's result array ends at the reference's result term of the same arguments. -/
theorem out_eq (c : Dev nD) : W4 m ρ c (Proc.devRef .tc main_v22)
    = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 6).trans (NodeValue.final (V3 m ρ) c)).trans ?_
  rw [V3_v17 m ρ c, V3_arg0 m ρ c, V3_v18 m ρ c, V3_v20 m ρ c, V3_v19 m ρ c, V3_v21 m ρ c]
  exact (Cert.ReferenceIdeal.RefValue.mlp_eq _ _ _ _ _ _ _ _ _).symm

end Cert.KernelIdeal.KernelValue

end
-- ==== Proof.lean ====
/-
  GINE-style message passing: the kernel program against its reference, over the extended reals.

  Both programs gather the source node's feature row for every edge, add the edge encoding  w[e]·a + b  to it,
  scatter-add the messages into their target nodes, add the node's own features, and run a two-layer perceptron
  (affine, relu, affine).  They differ in three places, none of which needs finite inputs:
    · the kernel adds the encoder's bias last, the reference first: addition of extended reals is associative;
    · the reference scales the node features by the literal 1 before adding them: 1 is the unit;
    · the kernel computes the edge encoding block of 12800 edges by block, and the perceptron block of 5000 nodes
      by block with both weight matrices transposed beforehand and its operands passed through a narrower float
      format (the identity on extended reals); the reference does each in one piece: a matrix product read at an
      entry is the same sum over the contracted axis either way, and the blocks tile the arrays.
  The gather, the index arithmetic in front of it and the scatter-add are the same operations on the same
  arguments in both programs and are carried unopened.

  Modules: Spec (the two passes index by index), EdgeValue and NodePayload / NodeValue (what each kernel region
  leaves), RefSide (the reference's term is the specification), KernelValue (the arrays at the regions' entries and
  the kernel program's result), KernelRun (the kernel program's run with its result named).
-/
import proofs.«127559_j53077205844582_1_alg».proof.Defs
import proofs.«127559_j53077205844582_1_alg».proof.Proof.Gen.Kernel
import proofs.«127559_j53077205844582_1_alg».proof.Proof.Gen.Kernel.Skeleton
import proofs.«127559_j53077205844582_1_alg».proof.Proof.Gen.Kernel.Launch
import proofs.«127559_j53077205844582_1_alg».proof.Proof.Gen.Kernel.Points
import proofs.«127559_j53077205844582_1_alg».proof.Proof.Gen.Kernel.Frame
import proofs.«127559_j53077205844582_1_alg».proof.Proof.Gen.KernelIdeal
import proofs.«127559_j53077205844582_1_alg».proof.Proof.Gen.KernelIdeal.Skeleton
import proofs.«127559_j53077205844582_1_alg».proof.Proof.Gen.KernelIdeal.Launch
import proofs.«127559_j53077205844582_1_alg».proof.Proof.Gen.KernelIdeal.Points
import proofs.«127559_j53077205844582_1_alg».proof.Proof.Gen.KernelIdeal.Frame
import proofs.«127559_j53077205844582_1_alg».proof.Proof.Gen.ReferenceIdeal
import proofs.«127559_j53077205844582_1_alg».proof.Proof.Gen.Pre_finite_inputs
import proofs.«127559_j53077205844582_1_alg».proof.Proof.Gen.ReferenceIdeal.Run
import proofs.«127559_j53077205844582_1_alg».proof.Proof.Gen.ReferenceIdeal.Read
import proofs.«127559_j53077205844582_1_alg».proof.Proof.KernelRun
import proofs.«127559_j53077205844582_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end, and with the same result array: the
    reference's result term of the kernel's arguments. -/
theorem algebraic : Cert.algebraic_KernelIdeal_ReferenceIdeal := by
  intro m ρ m' ρ' _ hagree
  refine ⟨fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.out_eq m ρ c), (h c).2⟩)
      (Cert.KernelIdeal.GenRun.run_out m ρ)
  · refine (θ_run Cert.ReferenceIdeal.defs _ _).mono (fun r h c => ⟨(h c).1.trans ?_, (h c).2⟩)
      (Cert.ReferenceIdeal.Value.run (F := Ideal) m' ρ')
    show Cert.ReferenceIdeal.Read.val_main_v36 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
